-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x9 .f32) (main_arg1 : IVec S2x1600000 32) (main_arg2 : IVec S100000 32) (main_arg3 : FVec F S9x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg3
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x9 : Shape := ⟨2, ![5000, 9]⟩
abbrev S5000x128 : Shape := ⟨2, ![5000, 128]⟩
abbrev S1700000x128 : Shape := ⟨2, ![1700000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 111
  | .vmem => 26
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S100000, .i32⟩
  | .hbm, ⟨3, _⟩ => ⟨S9x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S_, .f32⟩
  | .hbm, ⟨94, _⟩ => ⟨S64x128, .f32⟩
  | .hbm, ⟨95, _⟩ => ⟨S100000x1, .i32⟩
  | .hbm, ⟨96, _⟩ => ⟨S64x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | .hbm, ⟨109, _⟩ => ⟨S1x2, .f32⟩
  | .hbm, ⟨110, _⟩ => ⟨S64x2, .f32⟩
  | .local _ .vmem, ⟨0, _⟩ => ⟨S5000x9, .f32⟩
  | .local _ .vmem, ⟨1, _⟩ => ⟨S5000x9, .f32⟩
  | .local _ .vmem, ⟨2, _⟩ => ⟨S9x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S128x2, .f32⟩
  | .local _ .vmem, ⟨24, _⟩ => ⟨S1x2, .f32⟩
  | .local _ .vmem, ⟨25, _⟩ => ⟨S64x2, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S5000x9_S5000x9_0_0 : ∀ a, (![0, 0] : Fin 2 → Nat) a + S5000x9.size a ≤ S5000x9.size a
  h_S5000x9 : 0 < S5000x9.numel
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x9_S9x128_S5000x128_1_0_0_1_n_n_wf : DotDims.WF S5000x9 S9x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x9_S9x128_S5000x128_1_0_0_1_n_n : DotDims S5000x9 S9x128 S5000x128 where
  lhsContracting := [1]
  rhsContracting := [0]
  lhsNonContracting := [0]
  rhsNonContracting := [1]
  lhsBatch := []
  rhsBatch := []
  wf := dot_S5000x9_S9x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S64x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S64x2.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S9x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x128, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64, .f32⟩
  | 126 => ⟨S64, .f32⟩
  | 127 => ⟨S64x1, .f32⟩
  | _ => ⟨S100000x9, .f32⟩

abbrev hbmTy0_1 (i : Nat) : BufTy := match i % 128 with
  | 0 => ⟨S64x128, .f32⟩
  | 1 => ⟨S64x128, .f32⟩
  | 2 => ⟨S64x2, .f32⟩
  | 3 => ⟨S1x2, .f32⟩
  | 4 => ⟨S64x2, .f32⟩
  | 5 => ⟨S64x2, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  dot_S100000x9_S9x128_S100000x128_1_0_0_1_n_n_wf : DotDims.WF S100000x9 S9x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Dense0.lean ====
import proofs.«134685_j3951369912906_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first dense layer's product, as one function of the whole arrays

The first launch walks the 100000 rows of `x` in 20 blocks of 5000 rows. At each block it
multiplies the block by the whole `[9, 128]` weight, adds a `[1, 128]` row to every row of the
product, and writes the block of the result with the same row range. Over the extended reals the
narrowing of the two factors is the identity and the matrix unit's product into a zero accumulator
is the plain sum over the contracted axis, so entry `(r, q)` of the result is
`∑ k, x (r, k) · w (k, q) + b (0, q)`, whatever block `r` lies in: the blocks are restrictions of
one whole-array function, and they tile the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense0

open Cert.KernelIdeal Cert.KernelIdeal.Gen

/-- Rows of `x` against columns of `w`, plus the row `b`: the array the first launch leaves. -/
def affine (x : Vec Ideal S100000x9 .f32) (w : Vec Ideal S9x128 .f32) (b : Vec Ideal S1x128 .f32) :
    Vec Ideal S100000x128 .f32 :=
  fun i => (∑ k : Fin 9, x (ix2 (⟨(i 0).val, (i 0).isLt⟩ : Fin 100000) k) * w (ix2 k (⟨(i 1).val, (i 1).isLt⟩ : Fin 128)))
    + b (ix2 (0 : Fin 1) (⟨(i 1).val, (i 1).isLt⟩ : Fin 128))

/-! ## The product of one block at an entry -/

theorem lhs_0 (i : S5000x128.Idx) (q : dot_S5000x9_S9x128_S5000x128_1_0_0_1_n_n.contr.Idx) :
    (dot_S5000x9_S9x128_S5000x128_1_0_0_1_n_n.lhsIdx i q 0).val = (i 0).val := by
  unfold DotDims.lhsIdx
  rw [dif_neg (show ¬(0 : Fin S5000x9.rank) ∈ dot_S5000x9_S9x128_S5000x128_1_0_0_1_n_n.lhsBatch by decide), dif_pos (show (0 : Fin S5000x9.rank) ∈ dot_S5000x9_S9x128_S5000x128_1_0_0_1_n_n.lhsNonContracting by decide)]
  rfl
theorem lhs_1 (i : S5000x128.Idx) (q : dot_S5000x9_S9x128_S5000x128_1_0_0_1_n_n.contr.Idx) :
    (dot_S5000x9_S9x128_S5000x128_1_0_0_1_n_n.lhsIdx i q 1).val = (q ⟨0, by decide⟩).val :=
  dot_S5000x9_S9x128_S5000x128_1_0_0_1_n_n.lhsIdx_val_of_single rfl i q
theorem rhs_0 (i : S5000x128.Idx) (q : dot_S5000x9_S9x128_S5000x128_1_0_0_1_n_n.contr.Idx) :
    (dot_S5000x9_S9x128_S5000x128_1_0_0_1_n_n.rhsIdx i q 0).val = (q ⟨0, by decide⟩).val :=
  dot_S5000x9_S9x128_S5000x128_1_0_0_1_n_n.rhsIdx_val_of_single rfl i q
theorem rhs_1 (i : S5000x128.Idx) (q : dot_S5000x9_S9x128_S5000x128_1_0_0_1_n_n.contr.Idx) :
    (dot_S5000x9_S9x128_S5000x128_1_0_0_1_n_n.rhsIdx i q 1).val = (i 1).val := by
  unfold DotDims.rhsIdx
  rw [dif_neg (show ¬(1 : Fin S9x128.rank) ∈ dot_S5000x9_S9x128_S5000x128_1_0_0_1_n_n.rhsBatch by decide), dif_pos (show (1 : Fin S9x128.rank) ∈ dot_S5000x9_S9x128_S5000x128_1_0_0_1_n_n.rhsNonContracting by decide)]
  rfl

/-- The matrix unit's product of a block into zeros, at entry `(p, q)`: the sum over the contracted axis. -/
theorem product_apply (a : FVec Ideal S5000x9 .bf16) (b : FVec Ideal S9x128 .bf16) (p : Fin 5000) (q : Fin 128) :
    matmul dot_S5000x9_S9x128_S5000x128_1_0_0_1_n_n none a b (constant S5000x128 .f32 0x00000000#32) (ix2 p q)
      = ∑ k : Fin 9, a (ix2 p k) * b (ix2 k q) := by
  refine (Ideal.matmul_constant_zero_apply dot_S5000x9_S9x128_S5000x128_1_0_0_1_n_n none a b (ix2 p q)).trans ?_
  rw [← Equiv.sum_comp (ValueIdx.contrEquiv1 dot_S5000x9_S9x128_S5000x128_1_0_0_1_n_n 9 rfl rfl).symm]
  refine Finset.sum_congr rfl fun k _ => ?_
  have hk := ValueIdx.contrEquiv1_symm_val dot_S5000x9_S9x128_S5000x128_1_0_0_1_n_n 9 rfl rfl k
  have el : dot_S5000x9_S9x128_S5000x128_1_0_0_1_n_n.lhsIdx (ix2 p q) ((ValueIdx.contrEquiv1 dot_S5000x9_S9x128_S5000x128_1_0_0_1_n_n 9 rfl rfl).symm k) = ix2 p k := funext fun a => Fin.ext (by
    match a with
    | ⟨0, _⟩ => exact lhs_0 _ _
    | ⟨1, _⟩ => exact (lhs_1 _ _).trans hk)
  have er : dot_S5000x9_S9x128_S5000x128_1_0_0_1_n_n.rhsIdx (ix2 p q) ((ValueIdx.contrEquiv1 dot_S5000x9_S9x128_S5000x128_1_0_0_1_n_n 9 rfl rfl).symm k) = ix2 k q := funext fun a => Fin.ext (by
    match a with
    | ⟨0, _⟩ => exact (rhs_0 _ _).trans hk
    | ⟨1, _⟩ => exact rhs_1 _ _)
  rw [el, er]

/-- The row `[1, 128]` spread over the 5000 rows of a block, at entry `(p, q)`. -/
theorem spread_apply (x2 : Vec Ideal S1x128 .f32) (p : Fin 5000) (q : Fin 128) :
    broadcastTo S5000x128 (shapeCast S1x128 (shapeCast S1x128 x2 shapeCasts_S1x128_S1x128) shapeCasts_S1x128_S1x128) broadcasts_S1x128_S5000x128 (ix2 p q)
      = x2 (ix2 (0 : Fin 1) q) := by
  rw [shapeCast_self, shapeCast_self]
  refine broadcastTo_apply x2 broadcasts_S1x128_S5000x128 (ix2 p q) (ix2 (0 : Fin 1) q) fun a => ?_
  match a with
  | ⟨0, _⟩ => rfl
  | ⟨1, _⟩ => rfl

/-- What one grid point stores, at entry `(p, q)` of its block. -/
theorem stored_apply (x0 : Vec Ideal S5000x9 .f32) (x1 : Vec Ideal S9x128 .f32) (x2 : Vec Ideal S1x128 .f32) (p : Fin 5000) (q : Fin 128) :
    k0_pay1 (F := Ideal) x0 x1 x2 (ix2 p q) = (∑ k : Fin 9, x0 (ix2 p k) * x1 (ix2 k q)) + x2 (ix2 (0 : Fin 1) q) := by
  unfold k0_pay1
  refine (addf_apply _ _ (ix2 p q)).trans ?_
  refine congrArg₂ (· + ·) ?_ (spread_apply x2 p q)
  refine (product_apply _ _ p q).trans ?_
  try simp only [shapeCast_self]
  rfl

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the `x` block and the result block at row block `t`,
    the weight and the row always at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the `x` block at point `t` is row `5000 t + p` of `x`. -/
theorem read_x (c : Dev nD) (t : Fin cfg0.N) (p : Fin 5000) (k : Fin 9) (r : Fin 100000) (hr : r.val = t.val * 5000 + p.val) :
    (iblk0 V c 0 t : Vec Ideal S5000x9 .f32) (ix2 p k) = (V c main_arg0 : Vec Ideal S100000x9 .f32) (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 9 + 1 * k.val = k.val; omega

/-- The weight's block is the weight. -/
theorem read_w (c : Dev nD) (t : Fin cfg0.N) (k : Fin 9) (q : Fin 128) :
    (iblk0 V c 1 t : Vec Ideal S9x128 .f32) (ix2 k q) = (V c main_arg3 : Vec Ideal S9x128 .f32) (ix2 k q) := by
  obtain ⟨-, -, e2, e3, -⟩ := idx_facts t
  show V c main_arg3 (((cfg0.win 1).blk t).view.emb (ix2 k q)) = V c main_arg3 (ix2 k q)
  refine congrArg _ (funext fun a => Fin.ext ?_)
  match a with
  | ⟨0, _⟩ => show win0_1.index t (0 : Fin 2) * 9 + 1 * k.val = k.val; omega
  | ⟨1, _⟩ => show win0_1.index t (1 : Fin 2) * 128 + 1 * q.val = q.val; omega

/-- The row's block is the row. -/
theorem read_b (c : Dev nD) (t : Fin cfg0.N) (q : Fin 128) :
    (iblk0 V c 2 t : Vec Ideal S1x128 .f32) (ix2 (0 : Fin 1) q) = (V c main_v31 : Vec Ideal S1x128 .f32) (ix2 (0 : Fin 1) q) := by
  obtain ⟨-, -, -, -, e4, e5, -⟩ := idx_facts t
  show V c main_v31 (((cfg0.win 2).blk t).view.emb (ix2 (0 : Fin 1) q)) = V c main_v31 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point `t` writes back is block `t` of the whole-array function. -/
theorem flushed_eq (c : Dev nD) (t : Fin cfg0.N) :
    (dat0 V c).flushed 3 t = ((cfg0.win 3).blk t).view.read (Elt Ideal) (affine (V c main_arg0) (V c main_arg3) (V c main_v31)) := by
  show (cfg0.win 3).cut (grid0.coords t) ((dat0 V c).after 3 t) = _
  rw [after0_3]
  unfold out0_3
  rw [View.canon_unit_zero hz]
  simp only [View.ld_unit_zero (S := S5000x9) hz, View.ld_unit_zero (S := S9x128) hz, View.ld_unit_zero (S := S1x128) hz]
  obtain ⟨-, -, -, -, -, -, e6, e7⟩ := idx_facts t
  have ht : t.val < 20 := Nat.lt_of_lt_of_eq t.isLt N_0
  funext j
  have hj0 : (j 0).val < 5000 := (j 0).isLt
  have hj1 : (j 1).val < 128 := (j 1).isLt
  have hx : (win0 3).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  show k0_pay1 (F := Ideal) (iblk0 V c 0 t) (iblk0 V c 1 t) (iblk0 V c 2 t) ((win0 3).xinj (grid0.coords t) j)
    = affine (V c main_arg0) (V c main_arg3) (V c main_v31) (((cfg0.win 3).blk t).view.emb j)
  rw [hx]
  refine (stored_apply _ _ _ _ _).trans ?_
  have hr0 : ((((cfg0.win 3).blk t).view.emb j) 0).val = t.val * 5000 + (j 0).val := by
    show win0_3.index t (0 : Fin 2) * 5000 + 1 * (j 0).val = _; omega
  have hr1 : ((((cfg0.win 3).blk t).view.emb j) 1).val = (j 1).val := by
    show win0_3.index t (1 : Fin 2) * 128 + 1 * (j 1).val = _; omega
  unfold affine
  refine congrArg₂ (· + ·) (Finset.sum_congr rfl fun k _ => congrArg₂ (· * ·) ?_ ?_) ?_
  · exact read_x V c t _ k _ hr0
  · refine (read_w V c t k _).trans (congrArg _ ?_)
    exact congrArg (ix2 k) (Fin.ext hr1.symm)
  · refine (read_b V c t _).trans (congrArg _ ?_)
    exact congrArg (ix2 (0 : Fin 1)) (Fin.ext hr1.symm)

/-- Every entry of the result lies in the block of the point that its row block names. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, e6, e7⟩ := idx_facts t
  have e6' : win0_3.index t (0 : Fin 2) = (i 0).val / 5000 := e6
  refine ⟨t, flush0_3 t, ?_⟩
  show i ∈ ((View.whole main_v32).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the first launch leaves. -/
theorem final (c : Dev nD) :
    (dat0 V c).arrAt 3 cfg0.N = affine (V c main_arg0) (V c main_arg3) (V c main_v31) :=
  (dat0 V c).arrAt_eq_of_cover 3 (affine (V c main_arg0) (V c main_arg3) (V c main_v31)) (fun t _ => flushed_eq V c t) covered

end Blocks

end Cert.KernelIdeal.Dense0

end
-- ==== Proof.Dense2.lean ====
import proofs.«134685_j3951369912906_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The third dense layer's product, as one function of the whole arrays

The third launch walks the 100000 rows of the hidden features in 20 blocks of 5000 rows. At each block it
multiplies the block by the whole `[128, 128]` weight, adds a `[1, 128]` row to every row of the
product, and writes the block of the result with the same row range. Over the extended reals the
narrowing of the two factors is the identity and the matrix unit's product into a zero accumulator
is the plain sum over the contracted axis, so entry `(r, q)` of the result is
`∑ k, x (r, k) · w (k, q) + b (0, q)`, whatever block `r` lies in: the blocks are restrictions of
one whole-array function, and they tile the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense2

open Cert.KernelIdeal Cert.KernelIdeal.Gen

/-- Rows of the hidden features against columns of `w`, plus the row `b`: the array the third launch leaves. -/
def affine (x : Vec Ideal S100000x128 .f32) (w : Vec Ideal S128x128 .f32) (b : Vec Ideal S1x128 .f32) :
    Vec Ideal S100000x128 .f32 :=
  fun i => (∑ k : Fin 128, x (ix2 (⟨(i 0).val, (i 0).isLt⟩ : Fin 100000) k) * w (ix2 k (⟨(i 1).val, (i 1).isLt⟩ : Fin 128)))
    + b (ix2 (0 : Fin 1) (⟨(i 1).val, (i 1).isLt⟩ : Fin 128))

/-! ## The product of one block at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block into zeros, at entry `(p, q)`: the sum over the contracted axis. -/
theorem product_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The row `[1, 128]` spread over the 5000 rows of a block, at entry `(p, q)`. -/
theorem spread_apply (x2 : Vec Ideal S1x128 .f32) (p : Fin 5000) (q : Fin 128) :
    broadcastTo S5000x128 (shapeCast S1x128 (shapeCast S1x128 x2 shapeCasts_S1x128_S1x128) shapeCasts_S1x128_S1x128) broadcasts_S1x128_S5000x128 (ix2 p q)
      = x2 (ix2 (0 : Fin 1) q) := by
  rw [shapeCast_self, shapeCast_self]
  refine broadcastTo_apply x2 broadcasts_S1x128_S5000x128 (ix2 p q) (ix2 (0 : Fin 1) q) fun a => ?_
  match a with
  | ⟨0, _⟩ => rfl
  | ⟨1, _⟩ => rfl

/-- What one grid point stores, at entry `(p, q)` of its block. -/
theorem stored_apply (x0 : Vec Ideal S5000x128 .f32) (x1 : Vec Ideal S128x128 .f32) (x2 : Vec Ideal S1x128 .f32) (p : Fin 5000) (q : Fin 128) :
    k2_pay1 (F := Ideal) x0 x1 x2 (ix2 p q) = (∑ k : Fin 128, x0 (ix2 p k) * x1 (ix2 k q)) + x2 (ix2 (0 : Fin 1) q) := by
  unfold k2_pay1
  refine (addf_apply _ _ (ix2 p q)).trans ?_
  refine congrArg₂ (· + ·) ?_ (spread_apply x2 p q)
  refine (product_apply _ _ p q).trans ?_
  try simp only [shapeCast_self]
  rfl

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the `h` block and the result block at row block `t`,
    the weight and the row always at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the `h` block at point `t` is row `5000 t + p` of the hidden features. -/
theorem read_x (c : Dev nD) (t : Fin cfg2.N) (p : Fin 5000) (k : Fin 128) (r : Fin 100000) (hr : r.val = t.val * 5000 + p.val) :
    (iblk2 V c 0 t : Vec Ideal S5000x128 .f32) (ix2 p k) = (V c main_v47 : Vec Ideal S100000x128 .f32) (ix2 r k) := by
  obtain ⟨e0, e1, -⟩ := idx_facts t
  show V c main_v47 (((cfg2.win 0).blk t).view.emb (ix2 p k)) = V c main_v47 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight's block is the weight. -/
theorem read_w (c : Dev nD) (t : Fin cfg2.N) (k : Fin 128) (q : Fin 128) :
    (iblk2 V c 1 t : Vec Ideal S128x128 .f32) (ix2 k q) = (V c main_arg5 : Vec Ideal S128x128 .f32) (ix2 k q) := by
  obtain ⟨-, -, e2, e3, -⟩ := idx_facts t
  show V c main_arg5 (((cfg2.win 1).blk t).view.emb (ix2 k q)) = V c main_arg5 (ix2 k q)
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The row's block is the row. -/
theorem read_b (c : Dev nD) (t : Fin cfg2.N) (q : Fin 128) :
    (iblk2 V c 2 t : Vec Ideal S1x128 .f32) (ix2 (0 : Fin 1) q) = (V c main_v49 : Vec Ideal S1x128 .f32) (ix2 (0 : Fin 1) q) := by
  obtain ⟨-, -, -, -, e4, e5, -⟩ := idx_facts t
  show V c main_v49 (((cfg2.win 2).blk t).view.emb (ix2 (0 : Fin 1) q)) = V c main_v49 (ix2 (0 : Fin 1) q)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- What point `t` writes back is block `t` of the whole-array function. -/
theorem flushed_eq (c : Dev nD) (t : Fin cfg2.N) :
    (dat2 V c).flushed 3 t = ((cfg2.win 3).blk t).view.read (Elt Ideal) (affine (V c main_v47) (V c main_arg5) (V c main_v49)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts t
  have ht : t.val < 20 := Nat.lt_of_lt_of_eq t.isLt N_2
  funext j
  have hj0 : (j 0).val < 5000 := (j 0).isLt
  have hj1 : (j 1).val < 128 := (j 1).isLt
  have hx : (win2 3).xinj (grid2.coords t) j = ix2 (⟨(j 0).val, hj0⟩ : Fin 5000) (⟨(j 1).val, hj1⟩ : Fin 128) :=
    funext fun a => Fin.ext (by match a with | ⟨0, _⟩ => rfl | ⟨1, _⟩ => rfl)
  show k2_pay1 (F := Ideal) (iblk2 V c 0 t) (iblk2 V c 1 t) (iblk2 V c 2 t) ((win2 3).xinj (grid2.coords t) j)
    = affine (V c main_v47) (V c main_arg5) (V c main_v49) (((cfg2.win 3).blk t).view.emb j)
  rw [hx]
  refine (stored_apply _ _ _ _ _).trans ?_
  have hr0 : ((((cfg2.win 3).blk t).view.emb j) 0).val = t.val * 5000 + (j 0).val := by
    show win2_3.index t (0 : Fin 2) * 5000 + 1 * (j 0).val = _; omega
  have hr1 : ((((cfg2.win 3).blk t).view.emb j) 1).val = (j 1).val := by
    show win2_3.index t (1 : Fin 2) * 128 + 1 * (j 1).val = _; omega
  unfold affine
  refine congrArg₂ (· + ·) (Finset.sum_congr rfl fun k _ => congrArg₂ (· * ·) ?_ ?_) ?_
  · exact read_x V c t _ k _ hr0
  · refine (read_w V c t k _).trans (congrArg _ ?_)
    exact congrArg (ix2 k) (Fin.ext hr1.symm)
  · refine (read_b V c t _).trans (congrArg _ ?_)
    exact congrArg (ix2 (0 : Fin 1)) (Fin.ext hr1.symm)

/-- Every entry of the result lies in the block of the point that its row block names. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨-, -, -, -, -, -, e6, e7⟩ := idx_facts t
  have e6' : win2_3.index t (0 : Fin 2) = (i 0).val / 5000 := e6
  refine ⟨t, flush2_3 t, ?_⟩
  show i ∈ ((View.whole main_v50).slice (win2_3.rect t)).set
  rw [View.set_slice_whole, Rect.mem_set_unit]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The array the third launch leaves. -/
theorem final (c : Dev nD) :
    (dat2 V c).arrAt 3 cfg2.N = affine (V c main_v47) (V c main_arg5) (V c main_v49) :=
  (dat2 V c).arrAt_eq_of_cover 3 (affine (V c main_v47) (V c main_arg5) (V c main_v49)) (fun t _ => flushed_eq V c t) covered

end Blocks

end Cert.KernelIdeal.Dense2

end
-- ==== Proof.Dense4.lean ====
import proofs.«134685_j3951369912906_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The fifth dense layer's product, as one function of the whole arrays

The fifth launch walks the 64 rows of the pooled features in 1 blocks of 64 rows. At each block it
multiplies the block by the whole `[128, 2]` weight, adds a `[1, 2]` row to every row of the
product, and writes the block of the result with the same row range. Over the extended reals the
narrowing of the two factors is the identity and the matrix unit's product into a zero accumulator
is the plain sum over the contracted axis, so entry `(r, q)` of the result is
`∑ k, x (r, k) · w (k, q) + b (0, q)`, whatever block `r` lies in: the blocks are restrictions of
one whole-array function, and they tile the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense4

open Cert.KernelIdeal Cert.KernelIdeal.Gen

/-- Rows of the pooled features against columns of `w`, plus the row `b`: the array the fifth launch leaves. -/
def affine (x : Vec Ideal S64x128 .f32) (w : Vec Ideal S128x2 .f32) (b : Vec Ideal S1x2 .f32) :
    Vec Ideal S64x2 .f32 :=
  fun i => (∑ k : Fin 128, x (ix2 (⟨(i 0).val, (i 0).isLt⟩ : Fin 64) k) * w (ix2 k (⟨(i 1).val, (i 1).isLt⟩ : Fin 2)))
    + b (ix2 (0 : Fin 1) (⟨(i 1).val, (i 1).isLt⟩ : Fin 2))

/-! ## The product of one block at an entry -/

theorem lhs_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem rhs_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem rhs_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- The matrix unit's product of a block into zeros, at entry `(p, q)`: the sum over the contracted axis. -/
theorem product_apply (a : FVec Ideal S64x128 .bf16) (b : FVec Ideal S128x2 .bf16) (p : Fin 64) (q : Fin 2) :
    matmul dot_S64x128_S128x2_S64x2_1_0_0_1_n_n none a b (constant S64x2 .f32 0x00000000#32) (ix2 p q)
      = ∑ k : Fin 128, a (ix2 p k) * b (ix2 k q) := by
  refine (Ideal.matmul_constant_zero_apply dot_S64x128_S128x2_S64x2_1_0_0_1_n_n none a b (ix2 p q)).trans ?_
  rw [← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 p q) ((ValueIdx.contrEquiv1 dot_S64x128_S128x2_S64x2_1_0_0_1_n_n 128 rfl rfl).symm k) = ix2 p k := funext fun a => Fin.ext (by
    match a with
    | ⟨0, _⟩ => exact lhs_0 _ _
    | ⟨1, _⟩ => exact (lhs_1 _ _).trans hk)
  have er : dot_S64x128_S128x2_S64x2_1_0_0_1_n_n.rhsIdx (ix2 p q) ((ValueIdx.contrEquiv1 dot_S64x128_S128x2_S64x2_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The row `[1, 2]` spread over the 64 rows of a block, at entry `(p, q)`. -/
theorem spread_apply (x2 : Vec Ideal S1x2 .f32) (p : Fin 64) (q : Fin 2) :
    broadcastTo S64x2 (shapeCast S1x2 (shapeCast S1x2 x2 shapeCasts_S1x2_S1x2) shapeCasts_S1x2_S1x2) broadcasts_S1x2_S64x2 (ix2 p q)
      = x2 (ix2 (0 : Fin 1) q) := by
  rw [shapeCast_self, shapeCast_self]
  refine broadcastTo_apply x2 broadcasts_S1x2_S64x2 (ix2 p q) (ix2 (0 : Fin 1) q) fun a => ?_
  match a with
  | ⟨0, _⟩ => rfl
  | ⟨1, _⟩ => rfl

/-- What one grid point stores, at entry `(p, q)` of its block. -/
theorem stored_apply (x0 : Vec Ideal S64x128 .f32) (x1 : Vec Ideal S128x2 .f32) (x2 : Vec Ideal S1x2 .f32) (p : Fin 64) (q : Fin 2) :
    k4_pay1 (F := Ideal) x0 x1 x2 (ix2 p q) = (∑ k : Fin 128, x0 (ix2 p k) * x1 (ix2 k q)) + x2 (ix2 (0 : Fin 1) q) := by
  unfold k4_pay1
  refine (addf_apply _ _ (ix2 p q)).trans ?_
  refine congrArg₂ (· + ·) ?_ (spread_apply x2 p q)
  refine (product_apply _ _ p q).trans ?_
  try simp only [shapeCast_self]
  rfl

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the `p` block and the result block at row block `t`,
    the weight and the row always at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of the `p` block at point `t` is row `64 t + p` of the pooled features. -/
theorem read_x (c : Dev nD) (t : Fin cfg4.N) (p : Fin 64) (k : Fin 128) (r : Fin 64) (hr : r.val = t.val * 64 + p.val) :
    (iblk4 V c 0 t : Vec Ideal S64x128 .f32) (ix2 p k) = (V c main_v77 : Vec Ideal S64x128 .f32) (ix2 r k) := by
  obtain ⟨e0, e1, -⟩ := idx_facts t
  show V c main_v77 (((cfg4.win 0).blk t).view.emb (ix2 p k)) = V c main_v77 (ix2 r k)
  refine congrArg _ (funext fun a => Fin.ext ?_)
  match a with
  | ⟨0, _⟩ => show win4_0.index t (0 : Fin 2) * 64 + 1 * p.val = r.val; omega
  | ⟨1, _⟩ => show win4_0.index t (1 : Fin 2) * 128 + 1 * k.val = k.val; omega

/-- The weight's block is the weight. -/
theorem read_w (c : Dev nD) (t : Fin cfg4.N) (k : Fin 128) (q : Fin 2) :
    (iblk4 V c 1 t : Vec Ideal S128x2 .f32) (ix2 k q) = (V c main_arg7 : Vec Ideal S128x2 .f32) (ix2 k q) := by
  obtain ⟨-, -, e2, e3, -⟩ := idx_facts t
  show V c main_arg7 (((cfg4.win 1).blk t).view.emb (ix2 k q)) = V c main_arg7 (ix2 k q)
  refine congrArg _ (funext fun a => Fin.ext ?_)
  match a with
  | ⟨0, _⟩ => show win4_1.index t (0 : Fin 2) * 128 + 1 * k.val = k.val; omega
  | ⟨1, _⟩ => show win4_1.index t (1 : Fin 2) * 2 + 1 * q.val = q.val; omega

/-- The row's block is the row. -/
theorem read_b (c : Dev nD) (t : Fin cfg4.N) (q : Fin 2) :
    (iblk4 V c 2 t : Vec Ideal S1x2 .f32) (ix2 (0 : Fin 1) q) = (V c main_v78 : Vec Ideal S1x2 .f32) (ix2 (0 : Fin 1) q) := by
  obtain ⟨-, -, -, -, e4, e5, -⟩ := idx_facts t
  show V c main_v78 (((cfg4.win 2).blk t).view.emb (ix2 (0 : Fin 1) q)) = V c main_v78 (ix2 (0 : Fin 1) q)
  refine congrArg _ (funext fun a => Fin.ext ?_)
  match a with
  | ⟨0, _⟩ => show win4_2.index t (0 : Fin 2) * 1 + 1 * 0 = 0; omega
  | ⟨1, _⟩ => show win4_2.index t (1 : Fin 2) * 2 + 1 * q.val = q.val; omega

/-- What point `t` writes back is block `t` of the whole-array function. -/
theorem flushed_eq (c : Dev nD) (t : Fin cfg4.N) :
    (dat4 V c).flushed 3 t = ((cfg4.win 3).blk t).view.read (Elt Ideal) (affine (V c main_v77) (V c main_arg7) (V c main_v78)) := by
  show (cfg4.win 3).cut (grid4.coords t) ((dat4 V c).after 3 t) = _
  rw [after4_3]
  unfold out4_3
  rw [View.canon_unit_zero hz]
  simp only [View.ld_unit_zero (S := S64x128) hz, View.ld_unit_zero (S := S128x2) hz, View.ld_unit_zero (S := S1x2) hz]
  obtain ⟨-, -, -, -, -, -, e6, e7⟩ := idx_facts t
  have ht : t.val < 1 := Nat.lt_of_lt_of_eq t.isLt N_4
  funext j
  have hj0 : (j 0).val < 64 := (j 0).isLt
  have hj1 : (j 1).val < 2 := (j 1).isLt
  have hx : (win4 3).xinj (grid4.coords t) j = ix2 (⟨(j 0).val, hj0⟩ : Fin 64) (⟨(j 1).val, hj1⟩ : Fin 2) :=
    funext fun a => Fin.ext (by match a with | ⟨0, _⟩ => rfl | ⟨1, _⟩ => rfl)
  show k4_pay1 (F := Ideal) (iblk4 V c 0 t) (iblk4 V c 1 t) (iblk4 V c 2 t) ((win4 3).xinj (grid4.coords t) j)
    = affine (V c main_v77) (V c main_arg7) (V c main_v78) (((cfg4.win 3).blk t).view.emb j)
  rw [hx]
  refine (stored_apply _ _ _ _ _).trans ?_
  have hr0 : ((((cfg4.win 3).blk t).view.emb j) 0).val = t.val * 64 + (j 0).val := by
    show win4_3.index t (0 : Fin 2) * 64 + 1 * (j 0).val = _; omega
  have hr1 : ((((cfg4.win 3).blk t).view.emb j) 1).val = (j 1).val := by
    show win4_3.index t (1 : Fin 2) * 2 + 1 * (j 1).val = _; omega
  unfold affine
  refine congrArg₂ (· + ·) (Finset.sum_congr rfl fun k _ => congrArg₂ (· * ·) ?_ ?_) ?_
  · exact read_x V c t _ k _ hr0
  · refine (read_w V c t k _).trans (congrArg _ ?_)
    exact congrArg (ix2 k) (Fin.ext hr1.symm)
  · refine (read_b V c t _).trans (congrArg _ ?_)
    exact congrArg (ix2 (0 : Fin 1)) (Fin.ext hr1.symm)

/-- Every entry of the result lies in the block of the point that its row block names. -/
theorem covered (i : S64x2.Idx) :
    ∃ t : Fin cfg4.N, (cfg4.win 3).flush t = true ∧ i ∈ ((cfg4.win 3).blk t).view.set := by
  have hi0 : (i 0).val < 64 := (i 0).isLt
  have hi1 : (i 1).val < 2 := (i 1).isLt
  let t : Fin cfg4.N := ⟨(i 0).val / 64, by rw [show cfg4.N = 1 from N_4]; omega⟩
  obtain ⟨-, -, -, -, -, -, e6, e7⟩ := idx_facts t
  have e6' : win4_3.index t (0 : Fin 2) = (i 0).val / 64 := e6
  refine ⟨t, flush4_3 t, ?_⟩
  show i ∈ ((View.whole main_v79).slice (win4_3.rect t)).set
  rw [View.set_slice_whole, Rect.mem_set_unit]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 2 ≤ (i 1).val ∧ (i 1).val < win4_3.index t (1 : Fin 2) * 2 + 2; omega

/-- The array the fifth launch leaves. -/
theorem final (c : Dev nD) :
    (dat4 V c).arrAt 3 cfg4.N = affine (V c main_v77) (V c main_arg7) (V c main_v78) :=
  (dat4 V c).arrAt_eq_of_cover 3 (affine (V c main_v77) (V c main_arg7) (V c main_v78)) (fun t _ => flushed_eq V c t) covered

end Blocks

end Cert.KernelIdeal.Dense4

end
-- ==== Proof.Act1.lean ====
import proofs.«134685_j3951369912906_1_alg».proof.Proof.Gen.KernelIdeal.Frame
import Idealize.ShloMosaic.Lib.Pipeline.Value
import Idealize.ShloMosaic.Lib.ValueIdx
import Idealize.ShloMosaic.Lib.ValueLayout

/-!
# The first layer's bias and clamp, as one function of the whole arrays

The second launch walks the 100000 rows of the aggregated features in 20 blocks of 5000 rows; at each
block it adds the `[1, 128]` bias row to every row and takes the maximum with zero, and writes the block
of the result with the same row range. Entry `(r, q)` of the result is `max (a (r, q) + b (0, q)) 0`
whatever block `r` lies in, and the blocks tile the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Act1

open Cert.KernelIdeal Cert.KernelIdeal.Gen

/-- Add the row `b` to every row of `a` and clamp at zero from below: the array this launch leaves. -/
def biasRelu (a : Vec Ideal S100000x128 .f32) (b : Vec Ideal S1x128 .f32) : Vec Ideal S100000x128 .f32 :=
  fun i => max (a i + b (ix2 (0 : Fin 1) (⟨(i 1).val, (i 1).isLt⟩ : Fin 128))) (Ideal.ofBits .f32 0x00000000#32)

/-! ## One block at an entry -/

/-- The row `[1, 128]` spread over the 5000 rows of a block, at entry `(p, q)`. -/
theorem spread_apply (x : Vec Ideal S1x128 .f32) (p : Fin 5000) (q : Fin 128) :
    broadcastTo S5000x128 (shapeCast S1x128 (shapeCast S1x128 x shapeCasts_S1x128_S1x128) shapeCasts_S1x128_S1x128) broadcasts_S1x128_S5000x128 (ix2 p q)
      = x (ix2 (0 : Fin 1) q) := by
  rw [shapeCast_self, shapeCast_self]
  refine broadcastTo_apply x broadcasts_S1x128_S5000x128 (ix2 p q) (ix2 (0 : Fin 1) q) fun a => ?_
  match a with
  | ⟨0, _⟩ => rfl
  | ⟨1, _⟩ => rfl

/-- What one grid point stores, at entry `(p, q)` of its block: the block's entry plus the row's, clamped at zero. -/
theorem stored_apply (x0 : Vec Ideal S1x128 .f32) (x1 : Vec Ideal S5000x128 .f32) (p : Fin 5000) (q : Fin 128) :
    k1_pay1 (F := Ideal) x0 x1 (ix2 p q) = max (x1 (ix2 p q) + x0 (ix2 (0 : Fin 1) q)) (Ideal.ofBits .f32 0x00000000#32) := by
  unfold k1_pay1
  refine (maximumf_apply _ _ (ix2 p q)).trans ?_
  refine congrArg₂ max ?_ rfl
  refine (addf_apply _ _ (ix2 p q)).trans ?_
  refine congrArg₂ (· + ·) ?_ (spread_apply x0 p q)
  rw [shapeCast_self]

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the input block and the result block at row block `t`,
    the row always at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the input block at point `t` is row `5000 t + p` of the input. -/
theorem read_a (c : Dev nD) (t : Fin cfg1.N) (p : Fin 5000) (q : Fin 128) (i : S100000x128.Idx)
    (hr : (i 0).val = t.val * 5000 + p.val) (hq : (i 1).val = q.val) :
    (iblk1 V c 0 t : Vec Ideal S5000x128 .f32) (ix2 p q) = (V c main_v45 : Vec Ideal S100000x128 .f32) i := by
  obtain ⟨e0, e1, -⟩ := idx_facts t
  show V c main_v45 (((cfg1.win 0).blk t).view.emb (ix2 p q)) = V c main_v45 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * q.val = (i 1).val; omega

/-- The row's block is the row. -/
theorem read_b (c : Dev nD) (t : Fin cfg1.N) (q : Fin 128) :
    (iblk1 V c 1 t : Vec Ideal S1x128 .f32) (ix2 (0 : Fin 1) q) = (V c main_v46 : Vec Ideal S1x128 .f32) (ix2 (0 : Fin 1) q) := by
  obtain ⟨-, -, e2, e3, -⟩ := idx_facts t
  show V c main_v46 (((cfg1.win 1).blk t).view.emb (ix2 (0 : Fin 1) q)) = V c main_v46 (ix2 (0 : Fin 1) q)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point `t` writes back is block `t` of the whole-array function. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts t
  have ht : t.val < 20 := Nat.lt_of_lt_of_eq t.isLt N_1
  funext j
  have hj0 : (j 0).val < 5000 := (j 0).isLt
  have hj1 : (j 1).val < 128 := (j 1).isLt
  have hx : (win1 2).xinj (grid1.coords t) j = ix2 (⟨(j 0).val, hj0⟩ : Fin 5000) (⟨(j 1).val, hj1⟩ : Fin 128) :=
    funext fun a => Fin.ext (by match a with | ⟨0, _⟩ => rfl | ⟨1, _⟩ => rfl)
  show k1_pay1 (F := Ideal) (iblk1 V c 1 t) (iblk1 V c 0 t) ((win1 2).xinj (grid1.coords t) j)
    = biasRelu (V c main_v45) (V c main_v46) (((cfg1.win 2).blk t).view.emb j)
  rw [hx]
  refine (stored_apply _ _ _ _).trans ?_
  have hr0 : ((((cfg1.win 2).blk t).view.emb j) 0).val = t.val * 5000 + (j 0).val := by
    show win1_2.index t (0 : Fin 2) * 5000 + 1 * (j 0).val = _; omega
  have hr1 : ((((cfg1.win 2).blk t).view.emb j) 1).val = (j 1).val := by
    show win1_2.index t (1 : Fin 2) * 128 + 1 * (j 1).val = _; omega
  unfold biasRelu
  refine congrArg₂ max (congrArg₂ (· + ·) ?_ ?_) rfl
  · exact read_a V c t _ _ _ hr0 hr1
  · refine (read_b V c t _).trans (congrArg _ ?_)
    exact congrArg (ix2 (0 : Fin 1)) (Fin.ext hr1.symm)

/-- Every entry of the result lies in the block of the point that its row block names. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, e4, e5⟩ := idx_facts t
  have e4' : win1_2.index t (0 : Fin 2) = (i 0).val / 5000 := e4
  refine ⟨t, flush1_2 t, ?_⟩
  show i ∈ ((View.whole main_v47).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array this launch leaves. -/
theorem final (c : Dev nD) :
    (dat1 V c).arrAt 2 cfg1.N = biasRelu (V c main_v45) (V c main_v46) :=
  (dat1 V c).arrAt_eq_of_cover 2 (biasRelu (V c main_v45) (V c main_v46)) (fun t _ => flushed_eq V c t) covered

end Blocks

end Cert.KernelIdeal.Act1

end
-- ==== Proof.Act3.lean ====
import proofs.«134685_j3951369912906_1_alg».proof.Proof.Gen.KernelIdeal.Frame
import Idealize.ShloMosaic.Lib.Pipeline.Value
import Idealize.ShloMosaic.Lib.ValueIdx
import Idealize.ShloMosaic.Lib.ValueLayout

/-!
# The second layer's bias and clamp, as one function of the whole arrays

The fourth launch walks the 100000 rows of the aggregated features in 20 blocks of 5000 rows; at each
block it adds the `[1, 128]` bias row to every row and takes the maximum with zero, and writes the block
of the result with the same row range. Entry `(r, q)` of the result is `max (a (r, q) + b (0, q)) 0`
whatever block `r` lies in, and the blocks tile the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Act3

open Cert.KernelIdeal Cert.KernelIdeal.Gen

/-- Add the row `b` to every row of `a` and clamp at zero from below: the array this launch leaves. -/
def biasRelu (a : Vec Ideal S100000x128 .f32) (b : Vec Ideal S1x128 .f32) : Vec Ideal S100000x128 .f32 :=
  fun i => max (a i + b (ix2 (0 : Fin 1) (⟨(i 1).val, (i 1).isLt⟩ : Fin 128))) (Ideal.ofBits .f32 0x00000000#32)

/-! ## One block at an entry -/

/-- The row `[1, 128]` spread over the 5000 rows of a block, at entry `(p, q)`. -/
theorem spread_apply (x : Vec Ideal S1x128 .f32) (p : Fin 5000) (q : Fin 128) :
    broadcastTo S5000x128 (shapeCast S1x128 (shapeCast S1x128 x shapeCasts_S1x128_S1x128) shapeCasts_S1x128_S1x128) broadcasts_S1x128_S5000x128 (ix2 p q)
      = x (ix2 (0 : Fin 1) q) := by
  rw [shapeCast_self, shapeCast_self]
  refine broadcastTo_apply x broadcasts_S1x128_S5000x128 (ix2 p q) (ix2 (0 : Fin 1) q) fun a => ?_
  match a with
  | ⟨0, _⟩ => rfl
  | ⟨1, _⟩ => rfl

/-- What one grid point stores, at entry `(p, q)` of its block: the block's entry plus the row's, clamped at zero. -/
theorem stored_apply (x0 : Vec Ideal S1x128 .f32) (x1 : Vec Ideal S5000x128 .f32) (p : Fin 5000) (q : Fin 128) :
    k3_pay1 (F := Ideal) x0 x1 (ix2 p q) = max (x1 (ix2 p q) + x0 (ix2 (0 : Fin 1) q)) (Ideal.ofBits .f32 0x00000000#32) := by
  unfold k3_pay1
  refine (maximumf_apply _ _ (ix2 p q)).trans ?_
  refine congrArg₂ max ?_ rfl
  refine (addf_apply _ _ (ix2 p q)).trans ?_
  refine congrArg₂ (· + ·) ?_ (spread_apply x0 p q)
  rw [shapeCast_self]

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the input block and the result block at row block `t`,
    the row always at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the input block at point `t` is row `5000 t + p` of the input. -/
theorem read_a (c : Dev nD) (t : Fin cfg3.N) (p : Fin 5000) (q : Fin 128) (i : S100000x128.Idx)
    (hr : (i 0).val = t.val * 5000 + p.val) (hq : (i 1).val = q.val) :
    (iblk3 V c 0 t : Vec Ideal S5000x128 .f32) (ix2 p q) = (V c main_v63 : Vec Ideal S100000x128 .f32) i := by
  obtain ⟨e0, e1, -⟩ := idx_facts t
  show V c main_v63 (((cfg3.win 0).blk t).view.emb (ix2 p q)) = V c main_v63 i
  refine congrArg _ (funext fun a => Fin.ext ?_)
  match a with
  | ⟨0, _⟩ => show win3_0.index t (0 : Fin 2) * 5000 + 1 * p.val = (i 0).val; omega
  | ⟨1, _⟩ => show win3_0.index t (1 : Fin 2) * 128 + 1 * q.val = (i 1).val; omega

/-- The row's block is the row. -/
theorem read_b (c : Dev nD) (t : Fin cfg3.N) (q : Fin 128) :
    (iblk3 V c 1 t : Vec Ideal S1x128 .f32) (ix2 (0 : Fin 1) q) = (V c main_v64 : Vec Ideal S1x128 .f32) (ix2 (0 : Fin 1) q) := by
  obtain ⟨-, -, e2, e3, -⟩ := idx_facts t
  show V c main_v64 (((cfg3.win 1).blk t).view.emb (ix2 (0 : Fin 1) q)) = V c main_v64 (ix2 (0 : Fin 1) q)
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- What point `t` writes back is block `t` of the whole-array function. -/
theorem flushed_eq (c : Dev nD) (t : Fin cfg3.N) :
    (dat3 V c).flushed 2 t = ((cfg3.win 2).blk t).view.read (Elt Ideal) (biasRelu (V c main_v63) (V c main_v64)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx_facts t
  have ht : t.val < 20 := Nat.lt_of_lt_of_eq t.isLt N_3
  funext j
  have hj0 : (j 0).val < 5000 := (j 0).isLt
  have hj1 : (j 1).val < 128 := (j 1).isLt
  have hx : (win3 2).xinj (grid3.coords t) j = ix2 (⟨(j 0).val, hj0⟩ : Fin 5000) (⟨(j 1).val, hj1⟩ : Fin 128) :=
    funext fun a => Fin.ext (by match a with | ⟨0, _⟩ => rfl | ⟨1, _⟩ => rfl)
  show k3_pay1 (F := Ideal) (iblk3 V c 1 t) (iblk3 V c 0 t) ((win3 2).xinj (grid3.coords t) j)
    = biasRelu (V c main_v63) (V c main_v64) (((cfg3.win 2).blk t).view.emb j)
  rw [hx]
  refine (stored_apply _ _ _ _).trans ?_
  have hr0 : ((((cfg3.win 2).blk t).view.emb j) 0).val = t.val * 5000 + (j 0).val := by
    show win3_2.index t (0 : Fin 2) * 5000 + 1 * (j 0).val = _; omega
  have hr1 : ((((cfg3.win 2).blk t).view.emb j) 1).val = (j 1).val := by
    show win3_2.index t (1 : Fin 2) * 128 + 1 * (j 1).val = _; omega
  unfold biasRelu
  refine congrArg₂ max (congrArg₂ (· + ·) ?_ ?_) rfl
  · exact read_a V c t _ _ _ hr0 hr1
  · refine (read_b V c t _).trans (congrArg _ ?_)
    exact congrArg (ix2 (0 : Fin 1)) (Fin.ext hr1.symm)

/-- Every entry of the result lies in the block of the point that its row block names. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by rw [show cfg3.N = 20 from N_3]; omega⟩
  obtain ⟨-, -, -, -, e4, e5⟩ := idx_facts t
  have e4' : win3_2.index t (0 : Fin 2) = (i 0).val / 5000 := e4
  refine ⟨t, flush3_2 t, ?_⟩
  show i ∈ ((View.whole main_v65).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array this launch leaves. -/
theorem final (c : Dev nD) :
    (dat3 V c).arrAt 2 cfg3.N = biasRelu (V c main_v63) (V c main_v64) :=
  (dat3 V c).arrAt_eq_of_cover 2 (biasRelu (V c main_v63) (V c main_v64)) (fun t _ => flushed_eq V c t) covered

end Blocks

end Cert.KernelIdeal.Act3

end
-- ==== Proof.Bridge.lean ====
import proofs.«134685_j3951369912906_1_alg».proof.Proof.Dense0
import proofs.«134685_j3951369912906_1_alg».proof.Proof.Dense2
import proofs.«134685_j3951369912906_1_alg».proof.Proof.Dense4
import proofs.«134685_j3951369912906_1_alg».proof.Proof.Act1
import proofs.«134685_j3951369912906_1_alg».proof.Proof.Act3
import proofs.«134685_j3951369912906_1_alg».proof.Proof.RefReadP

/-!
# Each launch's array is the reference's stage

Over the extended reals each of the five launches computes what the reference computes at the same place of the
network, entry by entry:

* a dense launch leaves `∑ k, a (r, k) · w (k, q) + b (0, q)`. For the two hidden layers the row `b` is zero, and
  adding zero changes no extended real, so this is the reference's `dot_general`, the same sum. For the
  classifier `b` is the reshaped bias, and the reference adds the broadcast bias to its `dot_general`.
* a bias-and-clamp launch leaves `max (a (r, q) + b (0, q)) 0`, and the reference adds the broadcast bias and takes
  the maximum with the zero splat.

No law beyond `x + 0 = x` is used: both sides sum the same products in the same order.
-/

set_option maxRecDepth 16384

noncomputable section

open Idealize.ShloMosaic Idealize.ShloMosaic.TcCoe Idealize.SL.Sem
open Idealize.ShloMosaic.ValueIdx

namespace Cert.Bridge

open Cert.KernelIdeal
open Cert.ReferenceIdeal.ReadP

/-- First hidden layer: rows of `x` against `W1` plus a zero row is the reference's product. -/
theorem dense0 (x0 : Vec Ideal S100000x9 .f32) (x3 : Vec Ideal S9x128 .f32) (z : Vec Ideal S1x128 .f32)
    (hz : ∀ q : Fin 128, z (ix2 (0 : Fin 1) q) = 0) :
    Dense0.affine x0 x3 z = val_main_v15 (F := Ideal) x0 x3 := by
  funext i
  rw [val_main_v15_apply]
  unfold Dense0.affine
  rw [hz, add_zero]
  refine Finset.sum_congr rfl fun k _ => congrArg₂ (· * ·) (congrArg x0 ?_) (congrArg x3 ?_)
  · exact funext fun a => by match a with | ⟨0, _⟩ => rfl | ⟨1, _⟩ => rfl
  · exact funext fun a => by match a with | ⟨0, _⟩ => rfl | ⟨1, _⟩ => rfl

/-- First bias and clamp: the aggregated features plus the reshaped bias, clamped, is the reference's `relu (agg + b1)`. -/
theorem act1 (x0 : (⟨S100000x9, .f32⟩ : BufTy).Contents (Elt Ideal)) (x1 : (⟨S2x1600000, .i32⟩ : BufTy).Contents (Elt Ideal)) (x3 : (⟨S9x128, .f32⟩ : BufTy).Contents (Elt Ideal)) (x4 : (⟨S128, .f32⟩ : BufTy).Contents (Elt Ideal))
    (b : Vec Ideal S1x128 .f32) (hb : ∀ q : Fin 128, b (ix2 (0 : Fin 1) q) = x4 (ix1 q)) :
    Act1.biasRelu (val_main_v43 (F := Ideal) x0 x1 x3) b = val_main_v47 (F := Ideal) x0 x1 x3 x4 := by
  funext i
  rw [val_main_v47_apply, val_main_v46_apply, val_main_v45_apply, val_main_v44_apply, val_main_call1_v0_apply, val_main_call1_cst_apply]
  unfold Act1.biasRelu
  rw [hb]
  refine congrArg₂ max (congrArg₂ (· + ·) rfl (congrArg x4 ?_)) rfl
  exact funext fun a => by match a with | ⟨0, _⟩ => rfl

/-- Second hidden layer's product. -/
theorem dense2 (x0 : (⟨S100000x9, .f32⟩ : BufTy).Contents (Elt Ideal)) (x1 : (⟨S2x1600000, .i32⟩ : BufTy).Contents (Elt Ideal)) (x3 : (⟨S9x128, .f32⟩ : BufTy).Contents (Elt Ideal)) (x4 : (⟨S128, .f32⟩ : BufTy).Contents (Elt Ideal)) (x5 : (⟨S128x128, .f32⟩ : BufTy).Contents (Elt Ideal))
    (z : Vec Ideal S1x128 .f32) (hz : ∀ q : Fin 128, z (ix2 (0 : Fin 1) q) = 0) :
    Dense2.affine (val_main_v47 (F := Ideal) x0 x1 x3 x4) x5 z = val_main_v48 (F := Ideal) x0 x1 x3 x4 x5 := by
  funext i
  rw [val_main_v48_apply]
  unfold Dense2.affine
  rw [hz, add_zero]
  refine Finset.sum_congr rfl fun k _ => congrArg₂ (· * ·) (congrArg (val_main_v47 (F := Ideal) x0 x1 x3 x4) ?_) (congrArg x5 ?_)
  · exact funext fun a => by match a with | ⟨0, _⟩ => rfl | ⟨1, _⟩ => rfl
  · exact funext fun a => by match a with | ⟨0, _⟩ => rfl | ⟨1, _⟩ => rfl

/-- Second bias and clamp. -/
theorem act3 (x0 : (⟨S100000x9, .f32⟩ : BufTy).Contents (Elt Ideal)) (x1 : (⟨S2x1600000, .i32⟩ : BufTy).Contents (Elt Ideal)) (x3 : (⟨S9x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (b : Vec Ideal S1x128 .f32) (hb : ∀ q : Fin 128, b (ix2 (0 : Fin 1) q) = x6 (ix1 q)) :
    Act3.biasRelu (val_main_v76 (F := Ideal) x0 x1 x3 x4 x5) b = val_main_v80 (F := Ideal) x0 x1 x3 x4 x5 x6 := by
  funext i
  rw [val_main_v80_apply, val_main_v79_apply, val_main_v78_apply, val_main_v77_apply, val_main_call2_v0_apply, val_main_call2_cst_apply]
  unfold Act3.biasRelu
  rw [hb]
  refine congrArg₂ max (congrArg₂ (· + ·) rfl (congrArg x6 ?_)) rfl
  exact funext fun a => by match a with | ⟨0, _⟩ => rfl

/-- The classifier: the pooled features against `Wc` plus the reshaped bias is the reference's product plus the broadcast bias. -/
theorem dense4 (x0 : (⟨S100000x9, .f32⟩ : BufTy).Contents (Elt Ideal)) (x1 : (⟨S2x1600000, .i32⟩ : BufTy).Contents (Elt Ideal)) (x2 : (⟨S100000, .i32⟩ : BufTy).Contents (Elt Ideal)) (x3 : (⟨S9x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal))
    (b : Vec Ideal S1x2 .f32) (hb : ∀ q : Fin 2, b (ix2 (0 : Fin 1) q) = x8 (ix1 q)) :
    Dense4.affine (val_main_v92 (F := Ideal) x0 x1 x2 x3 x4 x5 x6) x7 b = val_main_v96 (F := Ideal) x0 x1 x2 x3 x4 x5 x6 x7 x8 := by
  funext i
  rw [val_main_v96_apply, val_main_v93_apply, val_main_v95_apply, val_main_v94_apply]
  unfold Dense4.affine
  rw [hb]
  refine congrArg₂ (· + ·) (Finset.sum_congr rfl fun k _ => congrArg₂ (· * ·) (congrArg (val_main_v92 (F := Ideal) x0 x1 x2 x3 x4 x5 x6) ?_) (congrArg x7 ?_)) (congrArg x8 ?_)
  · exact funext fun a => by match a with | ⟨0, _⟩ => rfl | ⟨1, _⟩ => rfl
  · exact funext fun a => by match a with | ⟨0, _⟩ => rfl | ⟨1, _⟩ => rfl
  · exact funext fun a => by match a with | ⟨0, _⟩ => rfl

end Cert.Bridge

end
-- ==== Proof.Host.lean ====
import proofs.«134685_j3951369912906_1_alg».proof.Proof.Gen.KernelIdeal.Frame
import proofs.«134685_j3951369912906_1_alg».proof.Proof.RefReadP
import Idealize.ShloMosaic.Lib.StableHlo.Run

set_option maxRecDepth 16384

noncomputable section

open Idealize.ShloMosaic Idealize.ShloMosaic.TcCoe Idealize.SL.Sem

/-!
# The host stretches of the kernel program, one at a time

Between the launches the kernel program runs the same host operations as the reference: it builds the edge list with
self loops, the inverse square roots of the degrees and the per-edge normalisation; after each dense launch it
gathers, scales and scatter-adds; at the end it pools. Each lemma here reads one stretch: given what the buffers it
reads hold — stated as the reference's value of the same quantity — the buffer it computes holds the reference's
next value. The operations are never opened: both sides are the same operations applied to equal operands, at any
float family.
-/

namespace Cert.KernelIdeal.Host

open Cert.KernelIdeal Cert.KernelIdeal.Gen
open Cert.ReferenceIdeal.ReadP

variable {F : FTy → Type} [FloatOps F]
variable (m : (ℓ : Loc nD τ sig) → Buf (Elt F) ℓ) (ρ : Dev nD → PrngReg)

abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)
abbrev x7 (c : Dev nD) := m ((c.tc : Thread nD τ).loc main_arg7)
abbrev x8 (c : Dev nD) := m ((c.tc : Thread nD τ).loc main_arg8)

/-! ## The first three stretches, from the launch memory -/

theorem rows_1 (c : Dev nD) : W1 m ρ c (Proc.devRef .tc main_v3) = val_main_v3 (F := F) (x1 m c) := by
  show StableHlo.after hostOps0 (W0 m ρ c) (Proc.devRef .tc main_v3) = _
  after_results_simp
  rfl

theorem cols_1 (c : Dev nD) : W1 m ρ c (Proc.devRef .tc main_v6) = val_main_v6 (F := F) (x1 m c) := by
  show StableHlo.after hostOps0 (W0 m ρ c) (Proc.devRef .tc main_v6) = _
  after_results_simp
  rfl

/-- The per-edge normalisation `dinv[row] · dinv[col]`, with `dinv` the inverse square root of the degree where it is positive. -/
theorem norm_3 (c : Dev nD) : W3 m ρ c (Proc.devRef .tc main_v29) = val_main_v30 (F := F) (x1 m c) := by
  show StableHlo.after hostOps0_2 (StableHlo.after hostOps0_1 (StableHlo.after hostOps0 (W0 m ρ c))) (Proc.devRef .tc main_v29) = _
  after_results_simp
  rfl

/-- The row the first dense launch adds: zeros, reshaped. -/
theorem zrow_3 (Wv : Valuation τ sig (Elt F)) :
    (StableHlo.after hostOps0_2 Wv (Proc.devRef .tc main_v31) : Vec F S1x128 .f32)
      = shapeCast S1x128 (broadcastInDim S128 ![] bcast_S_S128 (constant (F := F) S_ .f32 0x00000000#32)) shapeCasts_S128_S1x128 := by
  after_results_simp
  rfl

/-! ## After the first dense launch: gather, scale, scatter-add; the first bias row -/

theorem agg_5 (x0 : (⟨Cert.ReferenceIdeal.S100000x9, .f32⟩ : BufTy).Contents (Elt F)) (x1 : (⟨Cert.ReferenceIdeal.S2x1600000, .i32⟩ : BufTy).Contents (Elt F)) (x3 : (⟨Cert.ReferenceIdeal.S9x128, .f32⟩ : BufTy).Contents (Elt F)) (Wv : Valuation τ sig (Elt F))
    (h3 : Wv (Proc.devRef .tc main_v3) = val_main_v3 (F := F) x1) (h6 : Wv (Proc.devRef .tc main_v6) = val_main_v6 (F := F) x1)
    (h29 : Wv (Proc.devRef .tc main_v29) = val_main_v30 (F := F) x1) (h32 : Wv (Proc.devRef .tc main_v32) = val_main_v15 (F := F) x0 x3) :
    StableHlo.after hostOps1 Wv (Proc.devRef .tc main_v45) = val_main_v43 (F := F) x0 x1 x3 := by
  after_results_simp
  rw [h3, h6, h29, h32]
  rfl

theorem brow_5 (Wv : Valuation τ sig (Elt F)) :
    (StableHlo.after hostOps1 Wv (Proc.devRef .tc main_v46) : Vec F S1x128 .f32)
      = shapeCast S1x128 (Wv (Proc.devRef .tc main_arg4) : Vec F S128 .f32) shapeCasts_S128_S1x128 := by
  after_results_simp
  rfl

/-! ## Before the second dense launch: its zero row -/

theorem zrow_7 (Wv : Valuation τ sig (Elt F)) :
    (StableHlo.after hostOps2 Wv (Proc.devRef .tc main_v49) : Vec F S1x128 .f32)
      = shapeCast S1x128 (broadcastInDim S128 ![] bcast_S_S128 (constant (F := F) S_ .f32 0x00000000#32)) shapeCasts_S128_S1x128 := by
  after_results_simp
  rfl

/-! ## After the second dense launch: the second aggregation and bias row -/

theorem agg_9 (x0 : (⟨Cert.ReferenceIdeal.S100000x9, .f32⟩ : BufTy).Contents (Elt F)) (x1 : (⟨Cert.ReferenceIdeal.S2x1600000, .i32⟩ : BufTy).Contents (Elt F)) (x3 : (⟨Cert.ReferenceIdeal.S9x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (Wv : Valuation τ sig (Elt F))
    (h3 : Wv (Proc.devRef .tc main_v3) = val_main_v3 (F := F) x1) (h6 : Wv (Proc.devRef .tc main_v6) = val_main_v6 (F := F) x1)
    (h29 : Wv (Proc.devRef .tc main_v29) = val_main_v30 (F := F) x1) (h50 : Wv (Proc.devRef .tc main_v50) = val_main_v48 (F := F) x0 x1 x3 x4 x5) :
    StableHlo.after hostOps3 Wv (Proc.devRef .tc main_v63) = val_main_v76 (F := F) x0 x1 x3 x4 x5 := by
  after_results_simp
  rw [h3, h6, h29, h50]
  rfl

theorem brow_9 (Wv : Valuation τ sig (Elt F)) :
    (StableHlo.after hostOps3 Wv (Proc.devRef .tc main_v64) : Vec F S1x128 .f32)
      = shapeCast S1x128 (Wv (Proc.devRef .tc main_arg6) : Vec F S128 .f32) shapeCasts_S128_S1x128 := by
  after_results_simp
  rfl

/-! ## The mean pool over graphs, and the classifier's bias row -/

theorem pool_11 (x0 : (⟨Cert.ReferenceIdeal.S100000x9, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S9x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (Wv : Valuation τ sig (Elt F))
    (h2 : Wv (Proc.devRef .tc main_arg2) = x2) (h65 : Wv (Proc.devRef .tc main_v65) = val_main_v80 (F := F) x0 x1 x3 x4 x5 x6) :
    StableHlo.after hostOps4 Wv (Proc.devRef .tc main_v77) = val_main_v92 (F := F) x0 x1 x2 x3 x4 x5 x6 := by
  after_results_simp
  rw [h2, h65]
  rfl

theorem brow_11 (Wv : Valuation τ sig (Elt F)) :
    (StableHlo.after hostOps4 Wv (Proc.devRef .tc main_v78) : Vec F S1x2 .f32)
      = shapeCast S1x2 (Wv (Proc.devRef .tc main_arg8) : Vec F S2 .f32) shapeCasts_S2_S1x2 := by
  after_results_simp
  rfl

end Cert.KernelIdeal.Host

end
-- ==== Proof.KChain.lean ====
import proofs.«134685_j3951369912906_1_alg».proof.Proof.Gen.KernelIdeal.Frame
import proofs.«134685_j3951369912906_1_alg».proof.Proof.Bridge
import proofs.«134685_j3951369912906_1_alg».proof.Proof.Host
import Idealize.ShloMosaic.Lib.Pipeline.Value
import Idealize.ShloMosaic.Lib.ValueLayout

/-!
# The kernel program's buffers, boundary by boundary

The kernel program is twelve segments: stretches of host operations and the five launches. This module follows
the contents of the buffers through them over the extended reals and names, at each boundary, what later segments
read — always as the reference's value of the same quantity, taken at the kernel's own argument arrays:

* a host stretch maps the reference's values of what it reads to the reference's value of what it writes
  (`Cert.KernelIdeal.Host`: the same operations on equal operands);
* a launch's array is the whole-array function of the launch's operands, and that function is the reference's
  stage (`Cert.Bridge`);
* a buffer that a segment does not write keeps its contents: that is how the edge list, the normalisation and the
  arguments reach the later segments.

The last lemma is the result: the classifier launch leaves the reference's output.
-/

set_option maxRecDepth 16384

noncomputable section

open Idealize.ShloMosaic Idealize.ShloMosaic.TcCoe Idealize.SL.Sem
open Idealize.ShloMosaic.ValueIdx

namespace Cert.KernelIdeal.Chain

open Cert.KernelIdeal Cert.KernelIdeal.Gen Cert.KernelIdeal.Host
open Cert.ReferenceIdeal.ReadP

variable (m : (ℓ : Loc nD τ sig) → Buf (Elt Ideal) ℓ) (ρ : Dev nD → PrngReg)

/-! ## A segment keeps what it does not write -/

/-- A host stretch leaves a buffer none of its operations writes as it found it. -/
macro "hs" : tactic => `(tactic| (
  refine (StableHlo.after_of_forall_not_mem _ _ (List.forall_iff_forall_mem.mp ?_)).trans ?_
  · simp only [hostOps0, hostOps0_1, hostOps0_2, hostOps1, hostOps2, hostOps3, hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (apply StableHlo.devRef_ne_of_ne; decide)))

/-- A launch leaves a buffer that is none of its arrays as it found it (one macro per launch). -/
macro "l0" : tactic => `(tactic| (refine (W4_of_ne _ _ _ _ ?_).trans ?_; · decide))
macro "l1" : tactic => `(tactic| (refine (W6_of_ne _ _ _ _ ?_).trans ?_; · decide))
macro "l2" : tactic => `(tactic| (refine (W8_of_ne _ _ _ _ ?_).trans ?_; · decide))
macro "l3" : tactic => `(tactic| (refine (W10_of_ne _ _ _ _ ?_).trans ?_; · decide))

/-! ## Two layout facts over the extended reals -/

/-- The reshaped zero splat is zero everywhere. -/
theorem zero_row (q : Fin 128) :
    (shapeCast S1x128 (broadcastInDim S128 ![] bcast_S_S128 (constant (F := Ideal) S_ .f32 0x00000000#32)) shapeCasts_S128_S1x128 : Vec Ideal S1x128 .f32) (ix2 (0 : Fin 1) q) = 0 :=
  Ideal.ofBits_zero_f32

/-- A vector of 128 reshaped to one row, read in that row. -/
theorem row_of_vec (x : Vec Ideal S128 .f32) (q : Fin 128) :
    shapeCast S1x128 x shapeCasts_S128_S1x128 (ix2 (0 : Fin 1) q) = x (ix1 q) :=
  shapeCast_apply x shapeCasts_S128_S1x128 (ix2 (0 : Fin 1) q) (ix1 q)
    (by rewrite [Shape.rowMajor_val_one, Shape.rowMajor_val_two]; show q.val = 0 * 128 + q.val; omega)

/-- A vector of 2 reshaped to one row, read in that row. -/
theorem row_of_vec2 (x : Vec Ideal S2 .f32) (q : Fin 2) :
    shapeCast S1x2 x shapeCasts_S2_S1x2 (ix2 (0 : Fin 1) q) = x (ix1 q) :=
  shapeCast_apply x shapeCasts_S2_S1x2 (ix2 (0 : Fin 1) q) (ix1 q)
    (by rewrite [Shape.rowMajor_val_one, Shape.rowMajor_val_two]; show q.val = 0 * 2 + q.val; omega)

/-! ## Up to the first dense launch -/

theorem arg0_3 (c : Dev nD) : W3 m ρ c (Proc.devRef .tc main_arg0) = x0 m c := by hs; hs; hs; rfl
theorem arg3_3 (c : Dev nD) : W3 m ρ c (Proc.devRef .tc main_arg3) = x3 m c := by hs; hs; hs; rfl

/-- The first dense launch leaves `x · W1`. -/
theorem xw1_4 (c : Dev nD) : W4 m ρ c (Proc.devRef .tc main_v32) = val_main_v15 (F := Ideal) (x0 m c) (x3 m c) :=
  (W4_arr m ρ c 3).trans ((Dense0.final (V3 m ρ) c).trans
    ((congrArg₂ (fun a b => Dense0.affine a b (V3 m ρ c main_v31)) (arg0_3 m ρ c) (arg3_3 m ρ c)).trans
      (Bridge.dense0 _ _ _ fun q => (congrFun (zrow_3 (W2 m ρ c)) _).trans (zero_row q))))

theorem rows_4 (c : Dev nD) : W4 m ρ c (Proc.devRef .tc main_v3) = val_main_v3 (F := Ideal) (x1 m c) := by
  refine Eq.trans ?_ (rows_1 m ρ c); l0; hs; hs; rfl
theorem cols_4 (c : Dev nD) : W4 m ρ c (Proc.devRef .tc main_v6) = val_main_v6 (F := Ideal) (x1 m c) := by
  refine Eq.trans ?_ (cols_1 m ρ c); l0; hs; hs; rfl
theorem norm_4 (c : Dev nD) : W4 m ρ c (Proc.devRef .tc main_v29) = val_main_v30 (F := Ideal) (x1 m c) := by
  refine Eq.trans ?_ (norm_3 m ρ c); l0; rfl
theorem arg4_4 (c : Dev nD) : W4 m ρ c (Proc.devRef .tc main_arg4) = x4 m c := by l0; hs; hs; hs; rfl

/-! ## The first aggregation, bias and clamp -/

theorem agg1_5 (c : Dev nD) : W5 m ρ c (Proc.devRef .tc main_v45) = val_main_v43 (F := Ideal) (x0 m c) (x1 m c) (x3 m c) :=
  agg_5 _ _ _ (W4 m ρ c) (rows_4 m ρ c) (cols_4 m ρ c) (norm_4 m ρ c) (xw1_4 m ρ c)

theorem b1_5 (c : Dev nD) (q : Fin 128) : (W5 m ρ c (Proc.devRef .tc main_v46) : Vec Ideal S1x128 .f32) (ix2 (0 : Fin 1) q) = (x4 m c : Vec Ideal S128 .f32) (ix1 q) :=
  (congrFun (brow_5 (W4 m ρ c)) _).trans ((row_of_vec _ q).trans (congrFun (arg4_4 m ρ c) _))

theorem h1_6 (c : Dev nD) : W6 m ρ c (Proc.devRef .tc main_v47) = val_main_v47 (F := Ideal) (x0 m c) (x1 m c) (x3 m c) (x4 m c) :=
  (W6_arr m ρ c 2).trans ((Act1.final (V5 m ρ) c).trans
    ((congrArg (fun a => Act1.biasRelu a (V5 m ρ c main_v46)) (agg1_5 m ρ c)).trans
      (Bridge.act1 _ _ _ _ _ (b1_5 m ρ c))))

/-! ## The second dense launch -/

theorem h1_7 (c : Dev nD) : W7 m ρ c (Proc.devRef .tc main_v47) = val_main_v47 (F := Ideal) (x0 m c) (x1 m c) (x3 m c) (x4 m c) := by
  refine Eq.trans ?_ (h1_6 m ρ c); hs; rfl
theorem arg5_7 (c : Dev nD) : W7 m ρ c (Proc.devRef .tc main_arg5) = x5 m c := by hs; l1; hs; l0; hs; hs; hs; rfl

theorem xw2_8 (c : Dev nD) : W8 m ρ c (Proc.devRef .tc main_v50) = val_main_v48 (F := Ideal) (x0 m c) (x1 m c) (x3 m c) (x4 m c) (x5 m c) :=
  (W8_arr m ρ c 3).trans ((Dense2.final (V7 m ρ) c).trans
    ((congrArg₂ (fun a b => Dense2.affine a b (V7 m ρ c main_v49)) (h1_7 m ρ c) (arg5_7 m ρ c)).trans
      (Bridge.dense2 _ _ _ _ _ _ fun q => (congrFun (zrow_7 (W6 m ρ c)) _).trans (zero_row q))))

theorem rows_8 (c : Dev nD) : W8 m ρ c (Proc.devRef .tc main_v3) = val_main_v3 (F := Ideal) (x1 m c) := by
  refine Eq.trans ?_ (rows_4 m ρ c); l2; hs; l1; hs; rfl
theorem cols_8 (c : Dev nD) : W8 m ρ c (Proc.devRef .tc main_v6) = val_main_v6 (F := Ideal) (x1 m c) := by
  refine Eq.trans ?_ (cols_4 m ρ c); l2; hs; l1; hs; rfl
theorem norm_8 (c : Dev nD) : W8 m ρ c (Proc.devRef .tc main_v29) = val_main_v30 (F := Ideal) (x1 m c) := by
  refine Eq.trans ?_ (norm_4 m ρ c); l2; hs; l1; hs; rfl
theorem arg6_8 (c : Dev nD) : W8 m ρ c (Proc.devRef .tc main_arg6) = x6 m c := by l2; hs; l1; hs; l0; hs; hs; hs; rfl

/-! ## The second aggregation, bias and clamp -/

theorem agg2_9 (c : Dev nD) : W9 m ρ c (Proc.devRef .tc main_v63) = val_main_v76 (F := Ideal) (x0 m c) (x1 m c) (x3 m c) (x4 m c) (x5 m c) :=
  agg_9 _ _ _ _ _ (W8 m ρ c) (rows_8 m ρ c) (cols_8 m ρ c) (norm_8 m ρ c) (xw2_8 m ρ c)

theorem b2_9 (c : Dev nD) (q : Fin 128) : (W9 m ρ c (Proc.devRef .tc main_v64) : Vec Ideal S1x128 .f32) (ix2 (0 : Fin 1) q) = (x6 m c : Vec Ideal S128 .f32) (ix1 q) :=
  (congrFun (brow_9 (W8 m ρ c)) _).trans ((row_of_vec _ q).trans (congrFun (arg6_8 m ρ c) _))

theorem h2_10 (c : Dev nD) : W10 m ρ c (Proc.devRef .tc main_v65) = val_main_v80 (F := Ideal) (x0 m c) (x1 m c) (x3 m c) (x4 m c) (x5 m c) (x6 m c) :=
  (W10_arr m ρ c 2).trans ((Act3.final (V9 m ρ) c).trans
    ((congrArg (fun a => Act3.biasRelu a (V9 m ρ c main_v64)) (agg2_9 m ρ c)).trans
      (Bridge.act3 _ _ _ _ _ _ _ (b2_9 m ρ c))))

/-! ## The pool and the classifier -/

theorem arg2_10 (c : Dev nD) : W10 m ρ c (Proc.devRef .tc main_arg2) = x2 m c := by l3; hs; l2; hs; l1; hs; l0; hs; hs; hs; rfl
theorem arg8_10 (c : Dev nD) : W10 m ρ c (Proc.devRef .tc main_arg8) = x8 m c := by l3; hs; l2; hs; l1; hs; l0; hs; hs; hs; rfl

theorem pooled_11 (c : Dev nD) : W11 m ρ c (Proc.devRef .tc main_v77) = val_main_v92 (F := Ideal) (x0 m c) (x1 m c) (x2 m c) (x3 m c) (x4 m c) (x5 m c) (x6 m c) :=
  pool_11 _ _ _ _ _ _ _ (W10 m ρ c) (arg2_10 m ρ c) (h2_10 m ρ c)

theorem bc_11 (c : Dev nD) (q : Fin 2) : (W11 m ρ c (Proc.devRef .tc main_v78) : Vec Ideal S1x2 .f32) (ix2 (0 : Fin 1) q) = (x8 m c : Vec Ideal S2 .f32) (ix1 q) :=
  (congrFun (brow_11 (W10 m ρ c)) _).trans ((row_of_vec2 _ q).trans (congrFun (arg8_10 m ρ c) _))

theorem arg7_11 (c : Dev nD) : W11 m ρ c (Proc.devRef .tc main_arg7) = x7 m c := by hs; l3; hs; l2; hs; l1; hs; l0; hs; hs; hs; rfl

/-- THE RESULT: the classifier launch leaves the reference's output at the kernel's argument arrays. -/
theorem out_12 (c : Dev nD) : W12 m ρ c (Proc.devRef .tc main_v79) = val_main_v96 (F := Ideal) (x0 m c) (x1 m c) (x2 m c) (x3 m c) (x4 m c) (x5 m c) (x6 m c) (x7 m c) (x8 m c) :=
  (W12_arr m ρ c 3).trans ((Dense4.final (V11 m ρ) c).trans
    ((congrArg₂ (fun a b => Dense4.affine a b (V11 m ρ c main_v78)) (pooled_11 m ρ c) (arg7_11 m ρ c)).trans
      (Bridge.dense4 _ _ _ _ _ _ _ _ _ _ (bc_11 m ρ c))))

end Cert.KernelIdeal.Chain

end
-- ==== Proof.lean ====
import proofs.«134685_j3951369912906_1_alg».proof.Defs
import proofs.«134685_j3951369912906_1_alg».proof.Proof.Gen.Kernel
import proofs.«134685_j3951369912906_1_alg».proof.Proof.Gen.Kernel.Skeleton
import proofs.«134685_j3951369912906_1_alg».proof.Proof.Gen.Kernel.Launch
import proofs.«134685_j3951369912906_1_alg».proof.Proof.Gen.Kernel.Points
import proofs.«134685_j3951369912906_1_alg».proof.Proof.Gen.Kernel.Frame
import proofs.«134685_j3951369912906_1_alg».proof.Proof.Gen.KernelIdeal
import proofs.«134685_j3951369912906_1_alg».proof.Proof.Gen.KernelIdeal.Skeleton
import proofs.«134685_j3951369912906_1_alg».proof.Proof.Gen.KernelIdeal.Launch
import proofs.«134685_j3951369912906_1_alg».proof.Proof.Gen.KernelIdeal.Points
import proofs.«134685_j3951369912906_1_alg».proof.Proof.Gen.KernelIdeal.Frame
import proofs.«134685_j3951369912906_1_alg».proof.Proof.Gen.ReferenceIdeal
import proofs.«134685_j3951369912906_1_alg».proof.Proof.Gen.Pre_finite_inputs
import proofs.«134685_j3951369912906_1_alg».proof.Proof.RefRunP
import proofs.«134685_j3951369912906_1_alg».proof.Proof.RefReadP
import proofs.«134685_j3951369912906_1_alg».proof.Proof.KRun
import proofs.«134685_j3951369912906_1_alg».proof.Proof.KChain
import Idealize.ShloMosaic.Adequacy
import Idealize.ShloMosaic.Init

/-!
# A two-layer graph convolution with mean pooling: the kernel program against its reference

Both programs compute, for node features `x`, an edge list with self loops, and weights `W1, b1, W2, b2, Wc, bc`,

  `out = pool (relu (A (relu (A (x W1) + b1) W2) + b2)) Wc + bc`

where `A` is the degree-normalised scatter-add over the edges and `pool` the mean over each graph's nodes. The
kernel program runs the three matrix products and the two `relu (· + b)` on the accelerator, block of rows by block
of rows, and everything indexed by the edge list on the host; the reference runs everything on the host.

Over the extended reals the two agree for every input, finite or not: a launch's blocks are restrictions of one
whole-array function; a product's sum over the contracted axis is the same sum on both sides; the two hidden products
add a zero row, and `x + 0 = x`; the host operations between the launches are the same operations on equal arrays.
So the precondition is never opened. The kernel's idealization rewrote nothing, so `preserves` has nothing to say.
-/

noncomputable section

namespace Cert.Proof

open Idealize.ShloMosaic Idealize.SL.Sem

/-- The reference terminates with its arguments unchanged: its run, with the result dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- Both idealized programs end with the same result: the reference's output function of the argument arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Chain.out_12 m ρ c), (h c).2⟩)
      (Cert.KernelIdeal.GenP.run_named m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.ReadP.val_main_v96_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
